-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x128 : Shape := ⟨3, ![2048, 256, 128]⟩
abbrev S2048x768 : Shape := ⟨2, ![2048, 768]⟩
abbrev S32768x768 : Shape := ⟨2, ![32768, 768]⟩
abbrev S32768 : Shape := ⟨1, ![32768]⟩
abbrev S128 : Shape := ⟨1, ![128]⟩
abbrev S_ : Shape := ⟨0, ![]⟩

class Facts : Prop where
  bcast_S_S2048x256x128 : S_.BroadcastsInDim S2048x256x128 (![] : Fin 0 → Fin S2048x256x128.rank)
  reducesTo_S2048x256x128_S_d0_1_2 : S2048x256x128.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S32768x768 : S_.BroadcastsInDim S32768x768 (![] : Fin 0 → Fin S32768x768.rank)
  reducesTo_S32768x768_S_d0_1 : S32768x768.ReducesTo [0, 1] S_
  bcast_S_S32768 : S_.BroadcastsInDim S32768 (![] : Fin 0 → Fin S32768.rank)
  reducesTo_S32768_S_d0 : S32768.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2048x256x128 .f32) (main_arg1 : FVec F S2048x768 .f32) (main_arg2 : FVec F S32768x768 .f32) (main_arg3 : FVec F S32768 .f32) (main_arg4 : FVec F S128 .f32) : IVec S_ 1 :=
  let main_v0 : FVec F S2048x256x128 .f32 := Host.absf main_arg0
  let main_cst : FVec F S_ .f32 := constant S_ .f32 0x7F800000#32
  let main_v1 : FVec F S2048x256x128 .f32 := broadcastInDim S2048x256x128 ![] bcast_S_S2048x256x128 main_cst
  let main_v2 : IVec S2048x256x128 1 := cmpf .olt main_v0 main_v1
  let main_c : IVec S_ 1 := constantI S_ 1 1#1
  let main_v3 : IVec S_ 1 := (fun x v => Host.reduce IntOp.andi x v reducesTo_S2048x256x128_S_d0_1_2 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S32768x768 .f32 := Host.absf main_arg2
  let main_cst_2 : FVec F S_ .f32 := constant S_ .f32 0x7F800000#32
  let main_v10 : FVec F S32768x768 .f32 := broadcastInDim S32768x768 ![] bcast_S_S32768x768 main_cst_2
  let main_v11 : IVec S32768x768 1 := cmpf .olt main_v9 main_v10
  let main_c_3 : IVec S_ 1 := constantI S_ 1 1#1
  let main_v12 : IVec S_ 1 := (fun x v => Host.reduce IntOp.andi x v reducesTo_S32768x768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_v13 main_v16
-- ==== Kernel.lean ====
abbrev S2048x256x128 : Shape := ⟨3, ![2048, 256, 128]⟩
abbrev S2048x768 : Shape := ⟨2, ![2048, 768]⟩
abbrev S32768x768 : Shape := ⟨2, ![32768, 768]⟩
abbrev S32768 : Shape := ⟨1, ![32768]⟩
abbrev S128 : Shape := ⟨1, ![128]⟩
abbrev S1x32768 : Shape := ⟨2, ![1, 32768]⟩
abbrev S2048x32768 : Shape := ⟨2, ![2048, 32768]⟩
abbrev S256x768 : Shape := ⟨2, ![256, 768]⟩
abbrev S1x2048 : Shape := ⟨2, ![1, 2048]⟩
abbrev S256x2048 : Shape := ⟨2, ![256, 2048]⟩
abbrev S2048x16384 : Shape := ⟨2, ![2048, 16384]⟩
abbrev S2048x128x128 : Shape := ⟨3, ![2048, 128, 128]⟩
abbrev S1x1x128 : Shape := ⟨3, ![1, 1, 128]⟩
abbrev S16x256x128 : Shape := ⟨3, ![16, 256, 128]⟩
abbrev S16x128x128 : Shape := ⟨3, ![16, 128, 128]⟩
abbrev S16x128 : Shape := ⟨2, ![16, 128]⟩
abbrev S16x1x128 : Shape := ⟨3, ![16, 1, 128]⟩
abbrev S16x256 : Shape := ⟨2, ![16, 256]⟩
abbrev S16x256x1 : Shape := ⟨3, ![16, 256, 1]⟩

abbrev nBuf : Space → Nat
  | .hbm => 13
  | .vmem => 17
  | .smem => 0
  | _ => 0

abbrev bufTy : (tb : Table) → Fin (tcTables nBuf tb) → BufTy
  | .hbm, ⟨0, _⟩ => ⟨S2048x256x128, .f32⟩
  | .hbm, ⟨1, _⟩ => ⟨S2048x768, .f32⟩
  | .hbm, ⟨2, _⟩ => ⟨S32768x768, .f32⟩
  | .hbm, ⟨3, _⟩ => ⟨S32768, .f32⟩
  | .hbm, ⟨4, _⟩ => ⟨S128, .f32⟩
  | .hbm, ⟨5, _⟩ => ⟨S1x32768, .f32⟩
  | .hbm, ⟨6, _⟩ => ⟨S2048x32768, .f32⟩
  | .hbm, ⟨7, _⟩ => ⟨S2048x16384, .f32⟩
  | .hbm, ⟨8, _⟩ => ⟨S2048x128x128, .f32⟩
  | .hbm, ⟨9, _⟩ => ⟨S2048x16384, .f32⟩
  | .hbm, ⟨10, _⟩ => ⟨S2048x128x128, .f32⟩
  | .hbm, ⟨11, _⟩ => ⟨S1x1x128, .f32⟩
  | .hbm, ⟨12, _⟩ => ⟨S2048x256x128, .f32⟩
  | .local _ .vmem, ⟨0, _⟩ => ⟨S256x768, .f32⟩
  | .local _ .vmem, ⟨1, _⟩ => ⟨S256x768, .f32⟩
  | .local _ .vmem, ⟨2, _⟩ => ⟨S2048x768, .f32⟩
  | .local _ .vmem, ⟨3, _⟩ => ⟨S2048x768, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S16x256x128, .f32⟩
  | .local _ .vmem, ⟨9, _⟩ => ⟨S16x256x128, .f32⟩
  | .local _ .vmem, ⟨10, _⟩ => ⟨S16x128x128, .f32⟩
  | .local _ .vmem, ⟨11, _⟩ => ⟨S16x128x128, .f32⟩
  | .local _ .vmem, ⟨12, _⟩ => ⟨S16x128x128, .f32⟩
  | .local _ .vmem, ⟨13, _⟩ => ⟨S16x128x128, .f32⟩
  | .local _ .vmem, ⟨14, _⟩ => ⟨S1x1x128, .f32⟩
  | .local _ .vmem, ⟨15, _⟩ => ⟨S16x256x128, .f32⟩
  | .local _ .vmem, ⟨16, _⟩ => ⟨S16x256x128, .f32⟩
  | _, _ => ⟨S2048x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32768_S1x32768 : S32768.ShapeCasts S1x32768
  inb_S256x768_S256x768_0_0 : ∀ a, (![0, 0] : Fin 2 → Nat) a + S256x768.size a ≤ S256x768.size a
  h_S256x768 : 0 < S256x768.numel
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  slices_S2048x32768_S2048x16384_0_0 : S2048x32768.Slices ![0, 0] S2048x16384
  shapeCasts_S2048x16384_S2048x128x128 : S2048x16384.ShapeCasts S2048x128x128
  slices_S2048x32768_S2048x16384_0_16384 : S2048x32768.Slices ![0, 16384] S2048x16384
  shapeCasts_S128_S1x1x128 : S128.ShapeCasts S1x1x128
  inb_S16x256x128_S16x256x128_0_0_0 : ∀ a, (![0, 0, 0] : Fin 3 → Nat) a + S16x256x128.size a ≤ S16x256x128.size a
  h_S16x256x128 : 0 < S16x256x128.numel
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S16x128x128_S16x128 : S16x128x128.Reduces [1] S16x128
  shapeCasts_S16x128_S16x1x128 : S16x128.ShapeCasts S16x1x128
  broadcasts_S16x1x128_S16x128x128 : S16x1x128.Broadcasts S16x128x128
  reduces_S16x256x128_S16x256 : S16x256x128.Reduces [2] S16x256
  shapeCasts_S16x256_S16x256x1 : S16x256.ShapeCasts S16x256x1
  broadcasts_S16x256x1_S16x256x128 : S16x256x1.Broadcasts S16x256x128
  broadcasts_S1x1x128_S16x256x128 : S1x1x128.Broadcasts S16x256x128
  dot_S256x768_S2048x768_S256x2048_1_1_0_0_n_n_wf : DotDims.WF S256x768 S2048x768 S256x2048 [1] [1] [0] [0] [] []
  dot_S16x256x128_S16x128x128_S16x256x128_2_1_1_2_0_0_wf : DotDims.WF S16x256x128 S16x128x128 S16x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S2048x768.size a
  hwx0_0 : ∀ i : grid0.Coords, EltTy.bits .f32 = 32 ∨ (Rect.block (s := S2048x768) S256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S32768x768.size a
  hwx0_1 : ∀ i : grid0.Coords, EltTy.bits .f32 = 32 ∨ (Rect.block (s := S32768x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x32768.size a
  hwx0_2 : ∀ i : grid0.Coords, EltTy.bits .f32 = 32 ∨ (Rect.block (s := S1x32768) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x32768.size a
  hwx0_3 : ∀ i : grid0.Coords, EltTy.bits .f32 = 32 ∨ (Rect.block (s := S2048x32768) S256x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x128.size a ≤ S2048x256x128.size a
  hwx1_0 : ∀ i : grid1.Coords, EltTy.bits .f32 = 32 ∨ (Rect.block (s := S2048x256x128) S16x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x128.size a ≤ S2048x128x128.size a
  hwx1_1 : ∀ i : grid1.Coords, EltTy.bits .f32 = 32 ∨ (Rect.block (s := S2048x128x128) S16x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x128.size a ≤ S2048x128x128.size a
  hwx1_2 : ∀ i : grid1.Coords, EltTy.bits .f32 = 32 ∨ (Rect.block (s := S2048x128x128) S16x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S1x1x128.size a
  hwx1_3 : ∀ i : grid1.Coords, EltTy.bits .f32 = 32 ∨ (Rect.block (s := S1x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x256x128.size a ≤ S2048x256x128.size a
  hwx1_4 : ∀ i : grid1.Coords, EltTy.bits .f32 = 32 ∨ (Rect.block (s := S2048x256x128) S16x256x128.size (cc1_transform_4 i) (hinb1_4 i)).WholeWords (EltTy.packing .f32)

variable [Facts₀]

def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def dot_S16x256x128_S16x128x128_S16x256x128_2_1_1_2_0_0 : DotDims S16x256x128 S16x128x128 S16x256x128 where
  lhsContracting := [2]
  rhsContracting := [1]
  lhsNonContracting := [1]
  rhsNonContracting := [2]
  lhsBatch := [0]
  rhsBatch := [0]
  wf := dot_S16x256x128_S16x128x128_S16x256x128_2_1_1_2_0_0_wf

abbrev win0_0 : Pipeline.Window sig grid0 :=
  Pipeline.Window.ofSpec (Memref.whole main_arg1) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S16x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x256x128 : Shape := ⟨3, ![2048, 256, 128]⟩
abbrev S2048x768 : Shape := ⟨2, ![2048, 768]⟩
abbrev S32768x768 : Shape := ⟨2, ![32768, 768]⟩
abbrev S32768 : Shape := ⟨1, ![32768]⟩
abbrev S128 : Shape := ⟨1, ![128]⟩
abbrev S768x32768 : Shape := ⟨2, ![768, 32768]⟩
abbrev S2048x32768 : Shape := ⟨2, ![2048, 32768]⟩
abbrev S1x32768 : Shape := ⟨2, ![1, 32768]⟩
abbrev S2048x16384 : Shape := ⟨2, ![2048, 16384]⟩
abbrev S2048x128x128 : Shape := ⟨3, ![2048, 128, 128]⟩
abbrev S_ : Shape := ⟨0, ![]⟩
abbrev S2048x128 : Shape := ⟨2, ![2048, 128]⟩
abbrev S2048x1x128 : Shape := ⟨3, ![2048, 1, 128]⟩
abbrev S2048x256 : Shape := ⟨2, ![2048, 256]⟩
abbrev S2048x256x1 : Shape := ⟨3, ![2048, 256, 1]⟩
abbrev S1x1x128 : Shape := ⟨3, ![1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S2048x256x128, .f32⟩
  | .hbm, ⟨1, _⟩ => ⟨S2048x768, .f32⟩
  | .hbm, ⟨2, _⟩ => ⟨S32768x768, .f32⟩
  | .hbm, ⟨3, _⟩ => ⟨S32768, .f32⟩
  | .hbm, ⟨4, _⟩ => ⟨S128, .f32⟩
  | .hbm, ⟨5, _⟩ => ⟨S768x32768, .f32⟩
  | .hbm, ⟨6, _⟩ => ⟨S2048x32768, .f32⟩
  | .hbm, ⟨7, _⟩ => ⟨S1x32768, .f32⟩
  | .hbm, ⟨8, _⟩ => ⟨S2048x32768, .f32⟩
  | .hbm, ⟨9, _⟩ => ⟨S2048x32768, .f32⟩
  | .hbm, ⟨10, _⟩ => ⟨S2048x16384, .f32⟩
  | .hbm, ⟨11, _⟩ => ⟨S2048x16384, .f32⟩
  | .hbm, ⟨12, _⟩ => ⟨S2048x128x128, .f32⟩
  | .hbm, ⟨13, _⟩ => ⟨S2048x128x128, .f32⟩
  | .hbm, ⟨14, _⟩ => ⟨S2048x128x128, .f32⟩
  | .hbm, ⟨15, _⟩ => ⟨S_, .f32⟩
  | .hbm, ⟨16, _⟩ => ⟨S2048x128, .f32⟩
  | .hbm, ⟨17, _⟩ => ⟨S2048x1x128, .f32⟩
  | .hbm, ⟨18, _⟩ => ⟨S2048x1x128, .f32⟩
  | .hbm, ⟨19, _⟩ => ⟨S_, .f32⟩
  | .hbm, ⟨20, _⟩ => ⟨S2048x1x128, .f32⟩
  | .hbm, ⟨21, _⟩ => ⟨S2048x1x128, .f32⟩
  | .hbm, ⟨22, _⟩ => ⟨S2048x128x128, .f32⟩
  | .hbm, ⟨23, _⟩ => ⟨S2048x128x128, .f32⟩
  | .hbm, ⟨24, _⟩ => ⟨S2048x256x128, .f32⟩
  | .hbm, ⟨25, _⟩ => ⟨S_, .f32⟩
  | .hbm, ⟨26, _⟩ => ⟨S2048x256, .f32⟩
  | .hbm, ⟨27, _⟩ => ⟨S2048x256x1, .f32⟩
  | .hbm, ⟨28, _⟩ => ⟨S_, .f32⟩
  | .hbm, ⟨29, _⟩ => ⟨S2048x256x1, .f32⟩
  | .hbm, ⟨30, _⟩ => ⟨S2048x256x1, .f32⟩
  | .hbm, ⟨31, _⟩ => ⟨S_, .f32⟩
  | .hbm, ⟨32, _⟩ => ⟨S2048x256x1, .f32⟩
  | .hbm, ⟨33, _⟩ => ⟨S2048x256x1, .f32⟩
  | .hbm, ⟨34, _⟩ => ⟨S2048x256x1, .f32⟩
  | .hbm, ⟨35, _⟩ => ⟨S2048x256x128, .f32⟩
  | .hbm, ⟨36, _⟩ => ⟨S2048x256x128, .f32⟩
  | .hbm, ⟨37, _⟩ => ⟨S1x1x128, .f32⟩
  | .hbm, ⟨38, _⟩ => ⟨S2048x256x128, .f32⟩
  | .hbm, ⟨39, _⟩ => ⟨S2048x256x128, .f32⟩
  | .hbm, ⟨40, _⟩ => ⟨S2048x256x128, .f32⟩
  | .hbm, ⟨41, _⟩ => ⟨S2048x256x128, .f32⟩
  | .hbm, ⟨42, _⟩ => ⟨S2048x256x128, .f32⟩
  | .hbm, ⟨43, _⟩ => ⟨S_, .f32⟩
  | .hbm, ⟨44, _⟩ => ⟨S2048x256x128, .f32⟩
  | .hbm, ⟨45, _⟩ => ⟨S2048x256x128, .f32⟩
  | .hbm, ⟨46, _⟩ => ⟨S_, .f32⟩
  | .hbm, ⟨47, _⟩ => ⟨S2048x256x128, .f32⟩
  | .hbm, ⟨48, _⟩ => ⟨S2048x256x128, .f32⟩
  | .hbm, ⟨49, _⟩ => ⟨S2048x256x128, .f32⟩
  | .hbm, ⟨50, _⟩ => ⟨S2048x256x128, .f32⟩
  | .hbm, ⟨51, _⟩ => ⟨S2048x256x128, .f32⟩
  | _, _ => ⟨S2048x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  transposes_S32768x768_S768x32768_1_0 : S32768x768.Transposes [1, 0] S768x32768
  bcast_S32768_S1x32768_1 : S32768.BroadcastsInDim S1x32768 (![1] : Fin 1 → Fin S1x32768.rank)
  bcast_S1x32768_S2048x32768_0_1 : S1x32768.BroadcastsInDim S2048x32768 (![0, 1] : Fin 2 → Fin S2048x32768.rank)
  slices_S2048x32768_S2048x16384_0_0 : S2048x32768.Slices ![0, 0] S2048x16384
  slices_S2048x32768_S2048x16384_0_16384 : S2048x32768.Slices ![0, 16384] S2048x16384
  shapeCasts_S2048x16384_S2048x128x128 : S2048x16384.ShapeCasts S2048x128x128
  reducesTo_S2048x128x128_S2048x128_d1 : S2048x128x128.ReducesTo [1] S2048x128
  h_S_ : 0 < S_.numel
  bcast_S2048x128_S2048x1x128_0_2 : S2048x128.BroadcastsInDim S2048x1x128 (![0, 2] : Fin 2 → Fin S2048x1x128.rank)
  bcast_S_S2048x1x128 : S_.BroadcastsInDim S2048x1x128 (![] : Fin 0 → Fin S2048x1x128.rank)
  bcast_S2048x1x128_S2048x128x128_0_1_2 : S2048x1x128.BroadcastsInDim S2048x128x128 (![0, 1, 2] : Fin 3 → Fin S2048x128x128.rank)
  reducesTo_S2048x256x128_S2048x256_d2 : S2048x256x128.ReducesTo [2] S2048x256
  bcast_S2048x256_S2048x256x1_0_1 : S2048x256.BroadcastsInDim S2048x256x1 (![0, 1] : Fin 2 → Fin S2048x256x1.rank)
  bcast_S_S2048x256x1 : S_.BroadcastsInDim S2048x256x1 (![] : Fin 0 → Fin S2048x256x1.rank)
  bcast_S2048x256x1_S2048x256x128_0_1_2 : S2048x256x1.BroadcastsInDim S2048x256x128 (![0, 1, 2] : Fin 3 → Fin S2048x256x128.rank)
  bcast_S128_S1x1x128_2 : S128.BroadcastsInDim S1x1x128 (![2] : Fin 1 → Fin S1x1x128.rank)
  bcast_S1x1x128_S2048x256x128_0_1_2 : S1x1x128.BroadcastsInDim S2048x256x128 (![0, 1, 2] : Fin 3 → Fin S2048x256x128.rank)
  bcast_S_S2048x256x128 : S_.BroadcastsInDim S2048x256x128 (![] : Fin 0 → Fin S2048x256x128.rank)
  dot_S2048x768_S768x32768_S2048x32768_1_0_0_1_n_n_wf : DotDims.WF S2048x768 S768x32768 S2048x32768 [1] [0] [0] [1] [] []
  dot_S2048x256x128_S2048x128x128_S2048x256x128_2_1_1_2_0_0_wf : DotDims.WF S2048x256x128 S2048x128x128 S2048x256x128 [2] [1] [1] [2] [0] [0]

variable [Facts₀]

def dot_S2048x768_S768x32768_S2048x32768_1_0_0_1_n_n : DotDims S2048x768 S768x32768 S2048x32768 where
  lhsContracting := [1]
  rhsContracting := [0]
  lhsNonContracting := [0]
  rhsNonContracting := [1]
  lhsBatch := []
  rhsBatch := []
  wf := dot_S2048x768_S768x32768_S2048x32768_1_0_0_1_n_n_wf
def dot_S2048x256x128_S2048x128x128_S2048x256x128_2_1_1_2_0_0 : DotDims S2048x256x128 S2048x128x128 S2048x256x128 where
  lhsContracting := [2]
  rhsContracting := [1]
  lhsNonContracting := [1]
  rhsNonContracting := [2]
  lhsBatch := [0]
  rhsBatch := [0]
  wf := dot_S2048x256x128_S2048x128x128_S2048x256x128_2_1_1_2_0_0_wf

class Facts : Prop extends Facts₀ where

variable [Facts]
-- ==== Proof.Spec.lean ====
/-
  The mathematics both programs compute, on the extended reals, one output entry at a time.

  A sample `s` has 256 pixel rows of 128 features and one row of 768 patch features. A linear map (matrix `W`
  of 32768 rows, bias `B`) turns the patch row into 32768 numbers: the first 16384, read row-major as a 128 × 128
  matrix, are the first layer `L1`; the last 16384 likewise the second layer `L2`. Each column of `L1` is divided by
  its Euclidean norm (floored at a tiny constant); each pixel row is divided by its root mean square (a tiny
  constant under the root) and scaled featurewise by `w`; the row goes through `L1`, the gate `h ↦ h · σ(h)`, then
  `L2`, and the untouched pixel row is added back.
-/
import Idealize.ShloMosaic.PureOps.Ideal
import Idealize.ShloMosaic.Lib.ValueIdx

noncomputable section

open scoped BigOperators

namespace Cert.Spec

open Idealize.ShloMosaic Idealize.ShloMosaic.ValueIdx

/-- The floor under a column's norm: the single-precision number nearest `1e-12`. -/
abbrev normFloor : EReal := Ideal.ofBits .f32 0x2B8CBCCC#32
/-- The number of features of a pixel row, `128`, as the programs spell it. -/
abbrev rowWidth : EReal := Ideal.ofBits .f32 0x43000000#32
/-- The constant under the root of the mean square: `2⁻²³`. -/
abbrev meanEps : EReal := Ideal.ofBits .f32 0x34000000#32

/-- One generated weight: a patch row against one row of the generating matrix, plus that row's bias. -/
def genWeight (p w : Fin 768 → EReal) (b : EReal) : EReal := (∑ k : Fin 768, p k * w k) + b

/-- Entry `(d, e)` of a 128 × 128 matrix over the floored Euclidean norm of its column `e`. -/
def colUnit (L : Fin 128 → Fin 128 → EReal) (d e : Fin 128) : EReal :=
  Ideal.div (L d e) (max (Ideal.sqrt (∑ k : Fin 128, L k e * L k e)) normFloor)

/-- Feature `d` of a pixel row over the row's root mean square, scaled by `w d`. -/
def rmsScaled (x w : Fin 128 → EReal) (d : Fin 128) : EReal :=
  x d * Ideal.rsqrt (Ideal.div (∑ k : Fin 128, x k * x k) rowWidth + meanEps) * w d

/-- The gate between the two layers: `h · σ(h)`. -/
def gate (h : EReal) : EReal := h * Ideal.logistic h

/-- Output feature `f` of one pixel row `x`: the normalised row through the column-normalised first layer, the gate,
    the second layer, plus the row's own feature `f`. -/
def head (x : Fin 128 → EReal) (L1 L2 : Fin 128 → Fin 128 → EReal) (w : Fin 128 → EReal) (f : Fin 128) : EReal :=
  (∑ e : Fin 128, gate (∑ d : Fin 128, rmsScaled x w d * colUnit L1 d e) * L2 e f) + x f

/-- Where entry `(d, e)` of the first layer sits in a sample's 32768 generated numbers. -/
def pos1 (d e : Fin 128) : Fin 32768 := ⟨128 * d.val + e.val, by omega⟩
/-- Where entry `(e, f)` of the second layer sits there. -/
def pos2 (e f : Fin 128) : Fin 32768 := ⟨16384 + (128 * e.val + f.val), by omega⟩

/-- Generated number `j` of sample `s`. -/
def param (P : (⟨2, ![2048, 768]⟩ : Shape).Idx → EReal) (W : (⟨2, ![32768, 768]⟩ : Shape).Idx → EReal)
    (B : (⟨1, ![32768]⟩ : Shape).Idx → EReal) (s : Fin 2048) (j : Fin 32768) : EReal :=
  genWeight (fun k => P (ix2 s k)) (fun k => W (ix2 j k)) (B (ix1 j))

/-- The whole result: entry `(s, n, f)` is `head` of pixel row `n` of sample `s` under that sample's two layers. -/
def result (X : (⟨3, ![2048, 256, 128]⟩ : Shape).Idx → EReal) (P : (⟨2, ![2048, 768]⟩ : Shape).Idx → EReal)
    (W : (⟨2, ![32768, 768]⟩ : Shape).Idx → EReal) (B : (⟨1, ![32768]⟩ : Shape).Idx → EReal)
    (N : (⟨1, ![128]⟩ : Shape).Idx → EReal) : (⟨3, ![2048, 256, 128]⟩ : Shape).Idx → EReal := fun i =>
  head (fun d => X (ix3 (i 0) (i 1) d)) (fun d e => param P W B (i 0) (pos1 d e)) (fun e f => param P W B (i 0) (pos2 e f))
    (fun d => N (ix1 d)) (i 2)

end Cert.Spec

end
-- ==== Proof.RefValue.lean ====
/-
  The reference computes the specification: its host operations are read one at a time at an index, layer by layer —
  the generated numbers, the two layers cut out of them, the first layer over its floored column norms, the pixel rows
  over their root mean square, the hidden entries, the gate, the second product and the residual sum. The sums run over
  the same index sets in the same order as the specification's, so every step is a rewriting of indices.
-/
import proofs.«156047_j73392401154483_1_alg».proof.Proof.Gen.ReferenceIdeal.Read
import proofs.«156047_j73392401154483_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

section Layers

variable (x0 : (⟨S2048x256x128, .f32⟩ : BufTy).Contents (Elt Ideal)) (x1 : (⟨S2048x768, .f32⟩ : BufTy).Contents (Elt Ideal))
  (x2 : (⟨S32768x768, .f32⟩ : BufTy).Contents (Elt Ideal)) (x3 : (⟨S32768, .f32⟩ : BufTy).Contents (Elt Ideal))
  (x4 : (⟨S128, .f32⟩ : BufTy).Contents (Elt Ideal))

/-! ### The generated numbers: a patch row against a row of the generating matrix, plus the bias -/

/-- The left factor of term `k` of generated number `(s, j)` is patch feature `(s, k)`. -/
theorem patch_index (s : Fin 2048) (j : Fin 32768) (k : Fin 768) : lidx_main_v1 (ix2 s j) k = ix2 s k :=
  funext fun a => Fin.ext (by match a with | ⟨0, _⟩ => rfl | ⟨1, _⟩ => rfl)

/-- The right factor, read through the transpose, is entry `(j, k)` of the generating matrix. -/
theorem matrix_index (s : Fin 2048) (j : Fin 32768) (k : Fin 768) : idx_main_v0 (ridx_main_v1 (ix2 s j) k) = ix2 j k :=
  funext fun a => Fin.ext (by match a with | ⟨0, _⟩ => rfl | ⟨1, _⟩ => rfl)

/-- The broadcast bias at `(s, j)` is bias entry `j`. -/
theorem bias_index (s : Fin 2048) (j : Fin 32768) : idx_main_v2 (idx_main_v3 (ix2 s j)) = ix1 j :=
  funext fun a => Fin.ext (by match a with | ⟨0, _⟩ => rfl)

/-- Generated number `(s, j)` is the specification's. -/
theorem generated_number (s : Fin 2048) (j : Fin 32768) :
    val_main_v4 (F := Ideal) x1 x2 x3 (ix2 s j) = Cert.Spec.param x1 x2 x3 s j := by
  rw [val_main_v4_apply, val_main_v1_apply, val_main_v3_apply, val_main_v2_apply, bias_index]
  simp only [val_main_v0_apply, patch_index, matrix_index]
  rfl

/-! ### The two layers: the halves of a sample's generated numbers, read row-major -/

/-- Entry `(d, e)` of the first layer sits at position `128 d + e` of the sample's numbers. -/
theorem first_layer_index (s : Fin 2048) (d e : Fin 128) :
    idx_main_v5 (idx_main_v7 (ix3 s d e)) = ix2 s (Cert.Spec.pos1 d e) :=
  funext fun a => Fin.ext (by
    have hs := s.isLt; have hd := d.isLt; have he := e.isLt
    match a with
    | ⟨0, _⟩ => show ((s.val * 128 + d.val) * 128 + e.val) / 16384 = s.val; omega
    | ⟨1, _⟩ => show ((s.val * 128 + d.val) * 128 + e.val) % 16384 = 128 * d.val + e.val; omega)

/-- Entry `(e, f)` of the second layer sits at position `16384 + 128 e + f`. -/
theorem second_layer_index (s : Fin 2048) (e f : Fin 128) :
    idx_main_v6 (idx_main_v8 (ix3 s e f)) = ix2 s (Cert.Spec.pos2 e f) :=
  funext fun a => Fin.ext (by
    have hs := s.isLt; have he := e.isLt; have hf := f.isLt
    match a with
    | ⟨0, _⟩ => show ((s.val * 128 + e.val) * 128 + f.val) / 16384 = s.val; omega
    | ⟨1, _⟩ => show 16384 + ((s.val * 128 + e.val) * 128 + f.val) % 16384 = 16384 + (128 * e.val + f.val); omega)

/-- Entry `(d, e)` of sample `s`'s first layer. -/
theorem first_layer_entry (s : Fin 2048) (d e : Fin 128) :
    val_main_v7 (F := Ideal) x1 x2 x3 (ix3 s d e) = Cert.Spec.param x1 x2 x3 s (Cert.Spec.pos1 d e) := by
  rw [val_main_v7_apply, val_main_v5_apply, first_layer_index, generated_number]

/-- Entry `(e, f)` of sample `s`'s second layer. -/
theorem second_layer_entry (s : Fin 2048) (e f : Fin 128) :
    val_main_v8 (F := Ideal) x1 x2 x3 (ix3 s e f) = Cert.Spec.param x1 x2 x3 s (Cert.Spec.pos2 e f) := by
  rw [val_main_v8_apply, val_main_v6_apply, second_layer_index, generated_number]

/-! ### The first layer over its floored column norms -/

/-- Term `k` of the squared norm of column `e`, reached from entry `(d, e)`, is entry `(k, e)`. -/
theorem column_index (s : Fin 2048) (d e k : Fin 128) :
    idx_main_v10 (idx_main_v11 (idx_main_v15 (ix3 s d e))) k = ix3 s k e :=
  funext fun a => Fin.ext (by match a with | ⟨0, _⟩ => rfl | ⟨1, _⟩ => rfl | ⟨2, _⟩ => rfl)

/-- Entry `(d, e)` of the first layer over the floored Euclidean norm of column `e`. -/
theorem column_unit_entry (s : Fin 2048) (d e : Fin 128) :
    val_main_v16 (F := Ideal) x1 x2 x3 (ix3 s d e)
      = Cert.Spec.colUnit (fun d e => Cert.Spec.param x1 x2 x3 s (Cert.Spec.pos1 d e)) d e := by
  rw [val_main_v16_apply, val_main_v15_apply, val_main_v14_apply, val_main_v12_apply, val_main_v11_apply,
    val_main_v10_apply, val_main_v13_apply, val_main_cst_0_apply, val_main_cst_apply, first_layer_entry]
  simp only [val_main_v9_apply, column_index, first_layer_entry, Ideal.ofBits_def, Ideal.ofBits_zero_f32, zero_add,
    Ideal.hostDivf_def, Ideal.maximumf_def, Ideal.hostUnary_sqrt_def, Ideal.mulf_def]
  rfl

/-! ### The pixel rows over their root mean square, scaled featurewise -/

/-- Term `k` of the sum of squares of pixel row `(s, n)`, reached from feature `d`, is feature `k` of that row. -/
theorem row_index (s : Fin 2048) (n : Fin 256) (d k : Fin 128) :
    idx_main_v18 (idx_main_v19 (idx_main_v25 (ix3 s n d))) k = ix3 s n k :=
  funext fun a => Fin.ext (by match a with | ⟨0, _⟩ => rfl | ⟨1, _⟩ => rfl | ⟨2, _⟩ => rfl)

/-- The broadcast scale at `(s, n, d)` is scale entry `d`. -/
theorem scale_index (s : Fin 2048) (n : Fin 256) (d : Fin 128) : idx_main_v27 (idx_main_v28 (ix3 s n d)) = ix1 d :=
  funext fun a => Fin.ext (by match a with | ⟨0, _⟩ => rfl)

/-- Feature `d` of pixel row `(s, n)` over the row's root mean square, scaled. -/
theorem scaled_row_entry (s : Fin 2048) (n : Fin 256) (d : Fin 128) :
    val_main_v29 (F := Ideal) x0 x4 (ix3 s n d)
      = Cert.Spec.rmsScaled (fun d => x0 (ix3 s n d)) (fun d => x4 (ix1 d)) d := by
  rw [val_main_v29_apply, val_main_v26_apply, val_main_v25_apply, val_main_v24_apply, val_main_v23_apply,
    val_main_v21_apply, val_main_v19_apply, val_main_v18_apply, val_main_v20_apply, val_main_v22_apply,
    val_main_cst_1_apply, val_main_cst_2_apply, val_main_cst_3_apply, val_main_v28_apply, val_main_v27_apply, scale_index]
  simp only [val_main_v17_apply, row_index, Ideal.ofBits_def, Ideal.ofBits_zero_f32, zero_add,
    Ideal.hostDivf_def, Ideal.addf_def, Ideal.hostUnary_rsqrt_def, Ideal.mulf_def]
  rfl

/-! ### Through the first layer, the gate, the second layer -/

/-- The left factor of term `d` of hidden entry `(s, n, e)` is feature `d` of the scaled row. -/
theorem hidden_left_index (s : Fin 2048) (n : Fin 256) (e d : Fin 128) : lidx_main_v30 (ix3 s n e) d = ix3 s n d :=
  funext fun a => Fin.ext (by match a with | ⟨0, _⟩ => rfl | ⟨1, _⟩ => rfl | ⟨2, _⟩ => rfl)

/-- The right factor is entry `(d, e)` of the normalised first layer. -/
theorem hidden_right_index (s : Fin 2048) (n : Fin 256) (e d : Fin 128) : ridx_main_v30 (ix3 s n e) d = ix3 s d e :=
  funext fun a => Fin.ext (by match a with | ⟨0, _⟩ => rfl | ⟨1, _⟩ => rfl | ⟨2, _⟩ => rfl)

/-- Hidden entry `(s, n, e)`: the scaled row against column `e` of the normalised first layer. -/
theorem hidden_entry (s : Fin 2048) (n : Fin 256) (e : Fin 128) :
    val_main_v30 (F := Ideal) x0 x1 x2 x3 x4 (ix3 s n e)
      = ∑ d : Fin 128, Cert.Spec.rmsScaled (fun d => x0 (ix3 s n d)) (fun d => x4 (ix1 d)) d
          * Cert.Spec.colUnit (fun d e => Cert.Spec.param x1 x2 x3 s (Cert.Spec.pos1 d e)) d e := by
  rw [val_main_v30_apply]
  refine Finset.sum_congr rfl fun d _ => ?_
  rw [hidden_left_index, hidden_right_index, scaled_row_entry, column_unit_entry]

/-- The gated entry is the gate of the hidden entry: `h · (1 / (1 + exp (−h)))`. -/
theorem gated_entry (i : S2048x256x128.Idx) :
    val_main_v31 (F := Ideal) x0 x1 x2 x3 x4 i = Cert.Spec.gate (val_main_v30 (F := Ideal) x0 x1 x2 x3 x4 i) := by
  rw [val_main_v31_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.ofBits_def, Ideal.ofBits_one_f32, Ideal.hostDivf_def, Ideal.addf_def, Ideal.hostUnary_exp_def,
    Ideal.hostNegf_def, Ideal.negf_def, Ideal.mulf_def]
  rfl

/-- The left factor of term `e` of output entry `(s, n, f)` is gated entry `(s, n, e)`. -/
theorem output_left_index (s : Fin 2048) (n : Fin 256) (f e : Fin 128) : lidx_main_v32 (ix3 s n f) e = ix3 s n e :=
  funext fun a => Fin.ext (by match a with | ⟨0, _⟩ => rfl | ⟨1, _⟩ => rfl | ⟨2, _⟩ => rfl)

/-- The right factor is entry `(e, f)` of the second layer. -/
theorem output_right_index (s : Fin 2048) (n : Fin 256) (f e : Fin 128) : ridx_main_v32 (ix3 s n f) e = ix3 s e f :=
  funext fun a => Fin.ext (by match a with | ⟨0, _⟩ => rfl | ⟨1, _⟩ => rfl | ⟨2, _⟩ => rfl)

end Layers

theorem result_eq (x0 : (⟨S2048x256x128, .f32⟩ : BufTy).Contents (Elt Ideal)) (x1 : (⟨S2048x768, .f32⟩ : BufTy).Contents (Elt Ideal))
    (x2 : (⟨S32768x768, .f32⟩ : BufTy).Contents (Elt Ideal)) (x3 : (⟨S32768, .f32⟩ : BufTy).Contents (Elt Ideal))
    (x4 : (⟨S128, .f32⟩ : BufTy).Contents (Elt Ideal)) :
    val_main_v33 (F := Ideal) x0 x1 x2 x3 x4 = Cert.Spec.result x0 x1 x2 x3 x4 := by
  funext i
  obtain ⟨s, n, f, rfl⟩ : ∃ s n f, i = ix3 s n f := ⟨i 0, i 1, i 2, eq_ix3 i⟩
  rw [val_main_v33_apply, val_main_v32_apply]
  unfold Cert.Spec.result Cert.Spec.head
  refine congrArg₂ (· + ·) (Finset.sum_congr rfl fun e _ => ?_) rfl
  rw [output_left_index, output_right_index, gated_entry, hidden_entry, second_layer_entry]

end Cert.ReferenceIdeal.RefValue

end
-- ==== Proof.ParamsRegion.lean ====
/-
  The first kernel call computes every sample's 32768 generated numbers, a 256 × 2048 tile at a grid point: a tile
  entry is a patch row against a row of the generating matrix, plus the bias entry of that row. The 8 × 16 tiles cover
  the 2048 × 32768 output array, so after the call entry `(s, j)` is generated number `j` of sample `s`.
-/
import proofs.«156047_j73392401154483_1_alg».proof.Proof.Gen.KernelIdeal.Frame
import proofs.«156047_j73392401154483_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.ParamsRegion

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product's operand indices

The first program's product contracts axis 1 of both operands: at output entry `(p, q)` and contraction index `k`
the left operand is read at `(p, k)` and the right one at `(q, k)`. -/

/-- The left operand's row is the output's row. -/
theorem lhs_row (i : S256x2048.Idx) (r : dot_S256x768_S2048x768_S256x2048_1_1_0_0_n_n.contr.Idx) :
    (dot_S256x768_S2048x768_S256x2048_1_1_0_0_n_n.lhsIdx i r 0).val = (i 0).val := by
  unfold DotDims.lhsIdx
  rw [dif_neg (show ¬(0 : Fin S256x768.rank) ∈ dot_S256x768_S2048x768_S256x2048_1_1_0_0_n_n.lhsBatch by decide),
    dif_pos (show (0 : Fin S256x768.rank) ∈ dot_S256x768_S2048x768_S256x2048_1_1_0_0_n_n.lhsNonContracting by decide)]
  rfl
/-- The left operand's column is the contraction index. -/
theorem lhs_contr (i : S256x2048.Idx) (r : dot_S256x768_S2048x768_S256x2048_1_1_0_0_n_n.contr.Idx) :
    (dot_S256x768_S2048x768_S256x2048_1_1_0_0_n_n.lhsIdx i r 1).val = (r ⟨0, by decide⟩).val :=
  dot_S256x768_S2048x768_S256x2048_1_1_0_0_n_n.lhsIdx_val_of_single rfl i r
/-- The right operand's row is the output's column. -/
theorem rhs_row (i : S256x2048.Idx) (r : dot_S256x768_S2048x768_S256x2048_1_1_0_0_n_n.contr.Idx) :
    (dot_S256x768_S2048x768_S256x2048_1_1_0_0_n_n.rhsIdx i r 0).val = (i 1).val := by
  unfold DotDims.rhsIdx
  rw [dif_neg (show ¬(0 : Fin S2048x768.rank) ∈ dot_S256x768_S2048x768_S256x2048_1_1_0_0_n_n.rhsBatch by decide),
    dif_pos (show (0 : Fin S2048x768.rank) ∈ dot_S256x768_S2048x768_S256x2048_1_1_0_0_n_n.rhsNonContracting by decide)]
  rfl
/-- The right operand's column is the contraction index. -/
theorem rhs_contr (i : S256x2048.Idx) (r : dot_S256x768_S2048x768_S256x2048_1_1_0_0_n_n.contr.Idx) :
    (dot_S256x768_S2048x768_S256x2048_1_1_0_0_n_n.rhsIdx i r 1).val = (r ⟨0, by decide⟩).val :=
  dot_S256x768_S2048x768_S256x2048_1_1_0_0_n_n.rhsIdx_val_of_single rfl i r

theorem pay_apply (x0 : Vec Ideal S256x768 .f32) (x1 : Vec Ideal S2048x768 .f32) (x2 : Vec Ideal S1x2048 .f32)
    (p : Fin 256) (q : Fin 2048) :
    k0_pay1 (F := Ideal) x0 x1 x2 (ix2 p q)
      = Cert.Spec.genWeight (fun k => x0 (ix2 p k)) (fun k => x1 (ix2 q k)) (x2 (ix2 0 q)) := by
  unfold k0_pay1 Cert.Spec.genWeight
  simp only [matmul]
  rw [addf_apply, Ideal.matmul_constant_zero_apply,
    ← Equiv.sum_comp (contrEquiv1 dot_S256x768_S2048x768_S256x2048_1_1_0_0_n_n 768 rfl rfl).symm]
  congr 1
  · refine Finset.sum_congr rfl fun k _ => ?_
    have hk := contrEquiv1_symm_val dot_S256x768_S2048x768_S256x2048_1_1_0_0_n_n 768 rfl rfl k
    have el : dot_S256x768_S2048x768_S256x2048_1_1_0_0_n_n.lhsIdx (ix2 p q)
        ((contrEquiv1 dot_S256x768_S2048x768_S256x2048_1_1_0_0_n_n 768 rfl rfl).symm k) = ix2 p k :=
      funext fun a => Fin.ext (by
        match a with
        | ⟨0, _⟩ => exact lhs_row _ _
        | ⟨1, _⟩ => exact (lhs_contr _ _).trans hk)
    have er : dot_S256x768_S2048x768_S256x2048_1_1_0_0_n_n.rhsIdx (ix2 p q)
        ((contrEquiv1 dot_S256x768_S2048x768_S256x2048_1_1_0_0_n_n 768 rfl rfl).symm k) = ix2 q k :=
      funext fun a => Fin.ext (by
        match a with
        | ⟨0, _⟩ => exact rhs_row _ _
        | ⟨1, _⟩ => exact (rhs_contr _ _).trans hk)
    rw [truncf_apply, truncf_apply, el, er]
  · rw [shapeCast_self]
    exact broadcastTo_apply x2 broadcasts_S1x2048_S256x2048 (ix2 p q) (ix2 0 q) (fun a => by
      match a with
      | ⟨0, _⟩ => rfl
      | ⟨1, _⟩ => rfl)

/-! ## The region: every block the first program writes back is a block of the generated numbers

The grid is 16 × 8 with coordinates `(n, m)`. At a point the patches' block is block row `m` (256 samples, all 768
patch features), the matrix's block is block row `n` (2048 rows, all 768 columns), the bias's block is block column `n`
of its one row, and the output's block is block `(m, n)` of 256 × 2048. So output entry `(p, q)` of the block is sample
`256 m + p` against matrix row `2048 n + q`, plus bias entry `2048 n + q`: generated number `2048 n + q` of sample
`256 m + p`. The 8 × 16 output blocks tile the 2048 × 32768 array. -/

theorem zero_offsets : (![0, 0] : Fin 2 → Nat) = fun _ => 0 := funext fun a => by fin_cases a <;> rfl

/-- What the output array ends holding: entry `(s, j)` is generated number `j` of sample `s`. -/
def generated (c : Dev nD) : S2048x32768.Idx → EReal := fun i =>
  Cert.Spec.genWeight (fun k => V c main_arg1 (ix2 (i 0) k)) (fun k => V c main_arg2 (ix2 (i 1) k)) (V c main_v0 (ix2 0 (i 1)))

/-- The block indices at every point of the grid: the patches' block row is the output's, the matrix's block row and
    the bias's block column are the output's block column, the other block indices are zero; and the output's block
    indices stay below 8 and 16. -/
theorem block_indices : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every one of the 8 × 16 output blocks is some point's. -/
theorem block_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-- The patches' block at a point is the patch array read through the block's rectangle. -/
theorem patches_block (c : Dev nD) (t : Fin cfg0.N) (y : S256x768.Idx) :
    iblk0 V c 0 t y = V c main_arg1 (((cfg0.win 0).blk t).view.emb y) := by
  unfold iblk0; rfl
/-- The matrix's block at a point is the matrix read through the block's rectangle. -/
theorem matrix_block (c : Dev nD) (t : Fin cfg0.N) (y : S2048x768.Idx) :
    iblk0 V c 1 t y = V c main_arg2 (((cfg0.win 1).blk t).view.emb y) := by
  unfold iblk0; rfl
/-- The bias's block at a point is the bias row read through the block's rectangle. -/
theorem bias_block (c : Dev nD) (t : Fin cfg0.N) (y : S1x2048.Idx) :
    iblk0 V c 2 t y = V c main_v0 (((cfg0.win 2).blk t).view.emb y) := by
  unfold iblk0; rfl

/-- What a point writes back is its block of the generated numbers. -/
theorem flushed_eq (c : Dev nD) (t : Fin cfg0.N) :
    (dat0 (F := Ideal) V c).flushed 3 t = ((cfg0.win 3).blk t).view.read (Elt Ideal) (generated V c) := by
  show (cfg0.win 3).cut (grid0.coords t) ((dat0 (F := Ideal) V c).after 3 t) = _
  rw [after0_3]
  unfold out0_3
  rw [View.canon_unit_zero zero_offsets]
  simp only [View.ld_unit_zero (S := S256x768) zero_offsets, View.ld_unit_zero (S := S2048x768) zero_offsets,
    View.ld_unit_zero (S := S1x2048) zero_offsets]
  obtain ⟨e0, e1, e2, e3, e4, e5, e6, e7⟩ := block_indices t
  funext y
  obtain ⟨p, q, rfl⟩ : ∃ (p : Fin 256) (q : Fin 2048), y = ix2 p q := ⟨y 0, y 1, eq_ix2 y⟩
  show k0_pay1 (F := Ideal) (iblk0 V c 0 t) (iblk0 V c 1 t) (iblk0 V c 2 t) (ix2 p q)
    = generated V c (((cfg0.win 3).blk t).view.emb (ix2 p q))
  rw [pay_apply]
  have h0 : ∀ k : Fin 768, iblk0 V c 0 t (ix2 p k)
      = V c main_arg1 (ix2 ((((cfg0.win 3).blk t).view.emb (ix2 p q)) 0) k) := fun k => by
    rw [patches_block]
    refine congrArg (V c main_arg1) (funext fun a => Fin.ext ?_)
    match a with
    | ⟨0, _⟩ =>
      show win0_0.index t (0 : Fin 2) * 256 + 1 * p.val = win0_3.index t (0 : Fin 2) * 256 + 1 * p.val
      omega
    | ⟨1, _⟩ =>
      show win0_0.index t (1 : Fin 2) * 768 + 1 * k.val = k.val
      omega
  have h1 : ∀ k : Fin 768, iblk0 V c 1 t (ix2 q k)
      = V c main_arg2 (ix2 ((((cfg0.win 3).blk t).view.emb (ix2 p q)) 1) k) := fun k => by
    rw [matrix_block]
    refine congrArg (V c main_arg2) (funext fun a => Fin.ext ?_)
    match a with
    | ⟨0, _⟩ =>
      show win0_1.index t (0 : Fin 2) * 2048 + 1 * q.val = win0_3.index t (1 : Fin 2) * 2048 + 1 * q.val
      omega
    | ⟨1, _⟩ =>
      show win0_1.index t (1 : Fin 2) * 768 + 1 * k.val = k.val
      omega
  have h2 : iblk0 V c 2 t (ix2 0 q)
      = V c main_v0 (ix2 0 ((((cfg0.win 3).blk t).view.emb (ix2 p q)) 1)) := by
    rw [bias_block]
    refine congrArg (V c main_v0) (funext fun a => Fin.ext ?_)
    match a with
    | ⟨0, _⟩ =>
      show win0_2.index t (0 : Fin 2) * 1 + 1 * 0 = 0
      omega
    | ⟨1, _⟩ =>
      show win0_2.index t (1 : Fin 2) * 2048 + 1 * q.val = win0_3.index t (1 : Fin 2) * 2048 + 1 * q.val
      omega
  rw [funext h0, funext h1, h2]
  rfl

/-- An entry of the array is in a point's block iff each coordinate is in the block's range on its axis. -/
theorem mem_block (t : Fin cfg0.N) (i : S2048x32768.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v1).slice (win0_3.rect t)).set ↔ _
  rw [View.set_slice_whole, Rect.mem_set_unit]
  exact Iff.rfl

/-- The blocks cover the array: entry `(s, j)` lies in block `(s / 256, j / 2048)`. -/
theorem cover (i : S2048x32768.Idx) :
    ∃ t : Fin cfg0.N, (cfg0.win 3).flush t = true ∧ i ∈ ((cfg0.win 3).blk t).view.set := by
  have hi0 : (i 0).val < 2048 := (i 0).isLt
  have hi1 : (i 1).val < 32768 := (i 1).isLt
  obtain ⟨t, ht⟩ := block_onto ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 2048 ≤ (i 1).val ∧ (i 1).val < win0_3.index t (1 : Fin 2) * 2048 + 2048
    omega

theorem array_apply (c : Dev nD) (s : Fin 2048) (j : Fin 32768) :
    (dat0 (F := Ideal) V c).arrAt 3 cfg0.N (ix2 s j)
      = Cert.Spec.genWeight (fun k => V c main_arg1 (ix2 s k)) (fun k => V c main_arg2 (ix2 j k)) (V c main_v0 (ix2 0 j)) := by
  have h := (dat0 (F := Ideal) V c).arrAt_eq_of_cover 3 (generated V c) (fun t _ => flushed_eq V c t) cover
  exact congrFun h (ix2 s j)

end Cert.KernelIdeal.ParamsRegion

end
-- ==== Proof.MlpBody.lean ====
/-
  One grid point of the second kernel call holds sixteen samples. Its body — column norms of the first layer, root mean
  squares of the pixel rows, two sample-wise matrix products with the gate between them, the residual sum — is read
  here at one entry `(b, n, f)` of its output block and is the specification's `head` of pixel row `n` of sample `b`
  under that sample's two layers.
-/
import proofs.«156047_j73392401154483_1_alg».proof.Proof.Gen.KernelIdeal.Skeleton
import proofs.«156047_j73392401154483_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.MlpBody

open Cert.KernelIdeal Cert.KernelIdeal.Gen Idealize.ShloMosaic Idealize.ShloMosaic.TcCoe Idealize.ShloMosaic.ValueIdx Idealize.SL.Sem

/-! ## Layout operations at an index given by coordinates -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One row per sample, `[16, 1, 128]`, broadcast over 128 rows reads, at `(b, d, e)`, the operand at `(b, 0, e)`. -/
theorem broadcastTo_row_apply (x : S16x1x128.Idx → α) (h : S16x1x128.Broadcasts S16x128x128)
    (b : Fin 16) (d e : Fin 128) : broadcastTo S16x128x128 x h (ix3 b d e) = x (ix3 b (0 : Fin 1) e) :=
  broadcastTo_apply x h _ _ (fun a => by
    match a with
    | ⟨0, _⟩ => show b.val = if (16 : Nat) = 1 then 0 else b.val; rw [if_neg (by decide)]
    | ⟨1, _⟩ => show 0 = if (1 : Nat) = 1 then 0 else d.val; rw [if_pos rfl]
    | ⟨2, _⟩ => show e.val = if (128 : Nat) = 1 then 0 else e.val; rw [if_neg (by decide)])

/-- One number per pixel row, `[16, 256, 1]`, broadcast over 128 features reads, at `(b, n, d)`, the operand at
    `(b, n, 0)`. -/
theorem broadcastTo_lane_apply (x : S16x256x1.Idx → α) (h : S16x256x1.Broadcasts S16x256x128)
    (b : Fin 16) (n : Fin 256) (d : Fin 128) : broadcastTo S16x256x128 x h (ix3 b n d) = x (ix3 b n (0 : Fin 1)) :=
  broadcastTo_apply x h _ _ (fun a => by
    match a with
    | ⟨0, _⟩ => show b.val = if (16 : Nat) = 1 then 0 else b.val; rw [if_neg (by decide)]
    | ⟨1, _⟩ => show n.val = if (256 : Nat) = 1 then 0 else n.val; rw [if_neg (by decide)]
    | ⟨2, _⟩ => show 0 = if (1 : Nat) = 1 then 0 else d.val; rw [if_pos rfl])

/-- One feature row, `[1, 1, 128]`, broadcast over every sample and pixel row reads, at `(b, n, d)`, the operand at
    `(0, 0, d)`. -/
theorem broadcastTo_feature_apply (x : S1x1x128.Idx → α) (h : S1x1x128.Broadcasts S16x256x128)
    (b : Fin 16) (n : Fin 256) (d : Fin 128) :
    broadcastTo S16x256x128 x h (ix3 b n d) = x (ix3 (0 : Fin 1) (0 : Fin 1) d) :=
  broadcastTo_apply x h _ _ (fun a => by
    match a with
    | ⟨0, _⟩ => show 0 = if (1 : Nat) = 1 then 0 else b.val; rw [if_pos rfl]
    | ⟨1, _⟩ => show 0 = if (1 : Nat) = 1 then 0 else n.val; rw [if_pos rfl]
    | ⟨2, _⟩ => show d.val = if (128 : Nat) = 1 then 0 else d.val; rw [if_neg (by decide)])

end Layout

/-! ## The two lane sums -/

/-- Summing a `[16, 128, 128]` array over its middle axis: the index over `(b, e)` with `k` inserted is `(b, k, e)`. -/
theorem lift_middle (h : S16x128x128.Reduces [1] S16x128) (b : Fin 16) (e k : Fin 128) :
    h.lift (ix2 b e) k = ix3 b k e := by
  funext a
  apply Fin.ext
  match a with
  | ⟨0, _⟩ => rfl
  | ⟨1, _⟩ => rfl
  | ⟨2, _⟩ => rfl

/-- Summing a `[16, 256, 128]` array over its last axis: the index over `(b, n)` with `k` inserted is `(b, n, k)`. -/
theorem lift_last (h : S16x256x128.Reduces [2] S16x256) (b : Fin 16) (n : Fin 256) (k : Fin 128) :
    h.lift (ix2 b n) k = ix3 b n k := by
  funext a
  apply Fin.ext
  match a with
  | ⟨0, _⟩ => rfl
  | ⟨1, _⟩ => rfl
  | ⟨2, _⟩ => rfl

/-- The sum of squares down column `e` of sample `b`'s matrix. -/
theorem colSquares_apply (v : FVec Ideal S16x128x128 .f32) (h : S16x128x128.Reduces [1] S16x128)
    (hφ : FKind.Formats .f32) (hacc : (0x00000000#32 : BitVec 32) = FKind.add.neutral .f32 hφ) (b : Fin 16) (e : Fin 128) :
    multiReduction (F := Ideal) .add [1] S16x128 (mulf v v) 0x00000000#32 h hφ hacc (ix2 b e)
      = ∑ k : Fin 128, v (ix3 b k e) * v (ix3 b k e) := by
  refine (Ideal.multiReduction_add_single (mulf v v) _ h hφ hacc (ix2 b e)).trans ?_
  refine Finset.sum_congr rfl fun k _ => ?_
  rw [lift_middle h b e k, mulf_apply]

/-- The sum of squares along pixel row `n` of sample `b`. -/
theorem rowSquares_apply (v : FVec Ideal S16x256x128 .f32) (h : S16x256x128.Reduces [2] S16x256)
    (hφ : FKind.Formats .f32) (hacc : (0x00000000#32 : BitVec 32) = FKind.add.neutral .f32 hφ) (b : Fin 16) (n : Fin 256) :
    multiReduction (F := Ideal) .add [2] S16x256 (mulf v v) 0x00000000#32 h hφ hacc (ix2 b n)
      = ∑ k : Fin 128, v (ix3 b n k) * v (ix3 b n k) := by
  refine (Ideal.multiReduction_add_single (mulf v v) _ h hφ hacc (ix2 b n)).trans ?_
  refine Finset.sum_congr rfl fun k _ => ?_
  rw [lift_last h b n k, mulf_apply]

/-! ## The first layer's columns over their norms, and the pixel rows over their root mean squares -/

/-- A matrix entry over the floored norm of its column, as the body computes it, is the specification's `colUnit`. -/
theorem colUnit_apply (v : FVec Ideal S16x128x128 .f32) (hr : S16x128x128.Reduces [1] S16x128)
    (hφ : FKind.Formats .f32) (hacc : (0x00000000#32 : BitVec 32) = FKind.add.neutral .f32 hφ)
    (hc : S16x128.ShapeCasts S16x1x128) (hb : S16x1x128.Broadcasts S16x128x128) (b : Fin 16) (d e : Fin 128) :
    divf v (broadcastTo S16x128x128
        (maximumf (sqrt (shapeCast S16x1x128 (multiReduction (F := Ideal) .add [1] S16x128 (mulf v v) 0x00000000#32 hr hφ hacc) hc))
          (broadcast S16x1x128 (Scalar.ofBits (F := Ideal) .f32 0x2B8CBCCC#32))) hb) (ix3 b d e)
      = Cert.Spec.colUnit (fun d e => v (ix3 b d e)) d e := by
  rw [divf_apply, broadcastTo_row_apply, maximumf_apply, broadcast_apply]
  unfold Cert.Spec.colUnit
  refine congrArg (fun t => Ideal.div (v (ix3 b d e)) (max t _)) ?_
  show Ideal.sqrt (shapeCast S16x1x128 _ hc (ix3 b (0 : Fin 1) e)) = _
  rw [shapeCast_ab_a1b_apply, colSquares_apply]

/-- A pixel row's feature over the row's root mean square, scaled, as the body computes it, is the specification's
    `rmsScaled`. -/
theorem rmsScaled_apply (x : FVec Ideal S16x256x128 .f32) (w : FVec Ideal S1x1x128 .f32)
    (hr : S16x256x128.Reduces [2] S16x256) (hφ : FKind.Formats .f32)
    (hacc : (0x00000000#32 : BitVec 32) = FKind.add.neutral .f32 hφ) (hc : S16x256.ShapeCasts S16x256x1)
    (hb : S16x256x1.Broadcasts S16x256x128) (hw : S1x1x128.Broadcasts S16x256x128) (b : Fin 16) (n : Fin 256) (d : Fin 128) :
    mulf (mulf x (broadcastTo S16x256x128
        (rsqrt (addf (divf (shapeCast S16x256x1 (multiReduction (F := Ideal) .add [2] S16x256 (mulf x x) 0x00000000#32 hr hφ hacc) hc)
            (broadcast S16x256x1 (Scalar.ofBits (F := Ideal) .f32 0x43000000#32)))
          (broadcast S16x256x1 (Scalar.ofBits (F := Ideal) .f32 0x34000000#32)))) hb))
      (broadcastTo S16x256x128 w hw) (ix3 b n d)
      = Cert.Spec.rmsScaled (fun d => x (ix3 b n d)) (fun d => w (ix3 0 0 d)) d := by
  rw [mulf_apply, mulf_apply, broadcastTo_lane_apply, broadcastTo_feature_apply]
  unfold Cert.Spec.rmsScaled
  refine congrArg (fun t => x (ix3 b n d) * Ideal.rsqrt (Ideal.div t _ + _) * w (ix3 0 0 d)) ?_
  rw [shapeCast_ab_ab1_apply, rowSquares_apply]

/-! ## The batched product: sample by sample, rows of the left factor against columns of the right -/

theorem lhs_dot_0 (i : S16x256x128.Idx) (q : Cert.KernelIdeal.dot_S16x256x128_S16x128x128_S16x256x128_2_1_1_2_0_0.contr.Idx) :
    (Cert.KernelIdeal.dot_S16x256x128_S16x128x128_S16x256x128_2_1_1_2_0_0.lhsIdx i q 0).val = (i 0).val := by
  unfold DotDims.lhsIdx
  rw [dif_pos (show (0 : Fin S16x256x128.rank) ∈ Cert.KernelIdeal.dot_S16x256x128_S16x128x128_S16x256x128_2_1_1_2_0_0.lhsBatch by decide)]
  rfl
theorem lhs_dot_1 (i : S16x256x128.Idx) (q : Cert.KernelIdeal.dot_S16x256x128_S16x128x128_S16x256x128_2_1_1_2_0_0.contr.Idx) :
    (Cert.KernelIdeal.dot_S16x256x128_S16x128x128_S16x256x128_2_1_1_2_0_0.lhsIdx i q 1).val = (i 1).val := by
  unfold DotDims.lhsIdx
  rw [dif_neg (show ¬(1 : Fin S16x256x128.rank) ∈ Cert.KernelIdeal.dot_S16x256x128_S16x128x128_S16x256x128_2_1_1_2_0_0.lhsBatch by decide),
    dif_pos (show (1 : Fin S16x256x128.rank) ∈ Cert.KernelIdeal.dot_S16x256x128_S16x128x128_S16x256x128_2_1_1_2_0_0.lhsNonContracting by decide)]
  rfl
theorem lhs_dot_2 (i : S16x256x128.Idx) (q : Cert.KernelIdeal.dot_S16x256x128_S16x128x128_S16x256x128_2_1_1_2_0_0.contr.Idx) :
    (Cert.KernelIdeal.dot_S16x256x128_S16x128x128_S16x256x128_2_1_1_2_0_0.lhsIdx i q 2).val = (q ⟨0, by decide⟩).val :=
  Cert.KernelIdeal.dot_S16x256x128_S16x128x128_S16x256x128_2_1_1_2_0_0.lhsIdx_val_of_single rfl i q
theorem rhs_dot_0 (i : S16x256x128.Idx) (q : Cert.KernelIdeal.dot_S16x256x128_S16x128x128_S16x256x128_2_1_1_2_0_0.contr.Idx) :
    (Cert.KernelIdeal.dot_S16x256x128_S16x128x128_S16x256x128_2_1_1_2_0_0.rhsIdx i q 0).val = (i 0).val := by
  unfold DotDims.rhsIdx
  rw [dif_pos (show (0 : Fin S16x128x128.rank) ∈ Cert.KernelIdeal.dot_S16x256x128_S16x128x128_S16x256x128_2_1_1_2_0_0.rhsBatch by decide)]
  rfl
theorem rhs_dot_1 (i : S16x256x128.Idx) (q : Cert.KernelIdeal.dot_S16x256x128_S16x128x128_S16x256x128_2_1_1_2_0_0.contr.Idx) :
    (Cert.KernelIdeal.dot_S16x256x128_S16x128x128_S16x256x128_2_1_1_2_0_0.rhsIdx i q 1).val = (q ⟨0, by decide⟩).val :=
  Cert.KernelIdeal.dot_S16x256x128_S16x128x128_S16x256x128_2_1_1_2_0_0.rhsIdx_val_of_single rfl i q
theorem rhs_dot_2 (i : S16x256x128.Idx) (q : Cert.KernelIdeal.dot_S16x256x128_S16x128x128_S16x256x128_2_1_1_2_0_0.contr.Idx) :
    (Cert.KernelIdeal.dot_S16x256x128_S16x128x128_S16x256x128_2_1_1_2_0_0.rhsIdx i q 2).val = (i 2).val := by
  unfold DotDims.rhsIdx
  rw [dif_neg (show ¬(2 : Fin S16x128x128.rank) ∈ Cert.KernelIdeal.dot_S16x256x128_S16x128x128_S16x256x128_2_1_1_2_0_0.rhsBatch by decide),
    dif_pos (show (2 : Fin S16x128x128.rank) ∈ Cert.KernelIdeal.dot_S16x256x128_S16x128x128_S16x256x128_2_1_1_2_0_0.rhsNonContracting by decide)]
  rfl

/-- Entry `(b, n, f)` of the batched product into the zero splat: row `n` of sample `b`'s left matrix against column `f`
    of its right matrix. -/
theorem batchedProduct_apply (A : FVec Ideal S16x256x128 .bf16) (B : FVec Ideal S16x128x128 .bf16)
    (b : Fin 16) (n : Fin 256) (f : Fin 128) :
    matmul (F := Ideal) Cert.KernelIdeal.dot_S16x256x128_S16x128x128_S16x256x128_2_1_1_2_0_0 none A B (constant (F := Ideal) S16x256x128 .f32 0x00000000#32) (ix3 b n f)
      = ∑ k : Fin 128, A (ix3 b n k) * B (ix3 b k f) := by
  simp only [matmul]
  rw [Ideal.matmul_constant_zero_apply, ← Equiv.sum_comp (contrEquiv1 Cert.KernelIdeal.dot_S16x256x128_S16x128x128_S16x256x128_2_1_1_2_0_0 128 rfl rfl).symm]
  refine Finset.sum_congr rfl fun k _ => ?_
  have hk := contrEquiv1_symm_val Cert.KernelIdeal.dot_S16x256x128_S16x128x128_S16x256x128_2_1_1_2_0_0 128 rfl rfl k
  have el : Cert.KernelIdeal.dot_S16x256x128_S16x128x128_S16x256x128_2_1_1_2_0_0.lhsIdx (ix3 b n f) ((contrEquiv1 Cert.KernelIdeal.dot_S16x256x128_S16x128x128_S16x256x128_2_1_1_2_0_0 128 rfl rfl).symm k)
      = ix3 b n k := funext fun a => Fin.ext (by
    match a with
    | ⟨0, _⟩ => exact lhs_dot_0 _ _
    | ⟨1, _⟩ => exact lhs_dot_1 _ _
    | ⟨2, _⟩ => exact (lhs_dot_2 _ _).trans hk)
  have er : Cert.KernelIdeal.dot_S16x256x128_S16x128x128_S16x256x128_2_1_1_2_0_0.rhsIdx (ix3 b n f) ((contrEquiv1 Cert.KernelIdeal.dot_S16x256x128_S16x128x128_S16x256x128_2_1_1_2_0_0 128 rfl rfl).symm k)
      = ix3 b k f := funext fun a => Fin.ext (by
    match a with
    | ⟨0, _⟩ => exact rhs_dot_0 _ _
    | ⟨1, _⟩ => exact (rhs_dot_1 _ _).trans hk
    | ⟨2, _⟩ => exact rhs_dot_2 _ _)
  rw [el, er]

/-! ## The body at an entry -/

/-- The second kernel's body, as one term of its four loaded blocks, read at entry `(b, n, f)`: the specification's
    `head` of sample `b`'s pixel row `n`, under that sample's two layers. The identity casts drop out; the sum with
    the untouched row is read off; the outer product's terms are the gate of the inner product times the second layer's
    entry; the inner product's terms are the scaled normalised row times the column-normalised first layer. Narrowing
    to the short format changes nothing on the extended reals. -/
theorem pay_apply (x0 : Vec Ideal S16x256x128 .f32) (x1 x2 : Vec Ideal S16x128x128 .f32) (x3 : Vec Ideal S1x1x128 .f32)
    (b : Fin 16) (n : Fin 256) (f : Fin 128) :
    k1_pay1 (F := Ideal) x0 x1 x2 x3 (ix3 b n f)
      = Cert.Spec.head (fun d => x0 (ix3 b n d)) (fun d e => x1 (ix3 b d e)) (fun e f => x2 (ix3 b e f))
          (fun d => x3 (ix3 0 0 d)) f := by
  unfold k1_pay1
  simp only [shapeCast_self]
  rw [addf_apply, batchedProduct_apply]
  unfold Cert.Spec.head
  refine congrArg (· + x0 (ix3 b n f)) ?_
  refine Finset.sum_congr rfl fun e _ => ?_
  rw [truncf_apply, truncf_apply, mulf_apply]
  show _ * Ideal.logistic _ * _ = _
  rw [batchedProduct_apply]
  unfold Cert.Spec.gate
  refine congrArg (fun t => t * Ideal.logistic t * x2 (ix3 b e f)) ?_
  refine Finset.sum_congr rfl fun d _ => ?_
  rw [truncf_apply, truncf_apply]
  exact congrArg₂ (· * ·) (rmsScaled_apply x0 x3 _ _ _ _ _ _ b n d) (colUnit_apply x1 _ _ _ _ _ b d e)

end Cert.KernelIdeal.MlpBody

end
-- ==== Proof.MlpRegion.lean ====
/-
  The second kernel call walks the 2048 samples in 128 blocks of sixteen. Each grid point writes back its block of the
  function "head of the sample's pixel row under the sample's two layers"; the blocks tile the output array, so after
  the call the array is that function of the arrays the call was entered with.
-/
import proofs.«156047_j73392401154483_1_alg».proof.Proof.Gen.KernelIdeal.Frame
import proofs.«156047_j73392401154483_1_alg».proof.Proof.Spec
import proofs.«156047_j73392401154483_1_alg».proof.Proof.MlpBody
import Idealize.ShloMosaic.Lib.ValueIdx
import Idealize.ShloMosaic.Lib.Pipeline.Value

noncomputable section

open scoped BigOperators

namespace Cert.KernelIdeal.MlpRegion

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The three offsets of a whole-block access, all zero. -/
theorem zero_offsets : (![0, 0, 0] : Fin 3 → Nat) = fun _ => 0 :=
  funext fun a => by match a with | ⟨0, _⟩ => rfl | ⟨1, _⟩ => rfl | ⟨2, _⟩ => rfl

/-- What the output array holds after the region, index by index: the head of the sample's pixel row under the
    sample's two layers and the shared weight row. -/
def headOfArrays (c : Dev nD) : S2048x256x128.Idx → Elt Ideal .f32 := fun i =>
  Cert.Spec.head (fun d => V c main_arg0 (ix3 (i 0) (i 1) d)) (fun d e => V c main_v3 (ix3 (i 0) d e))
    (fun e f => V c main_v5 (ix3 (i 0) e f)) (fun d => V c main_v6 (ix3 0 0 d)) (i 2)

/-- The head depends on its four function arguments only through their values. -/
theorem head_congr {x x' : Fin 128 → EReal} {L1 L1' L2 L2' : Fin 128 → Fin 128 → EReal} {w w' : Fin 128 → EReal}
    (hx : ∀ d, x d = x' d) (h1 : ∀ d e, L1 d e = L1' d e) (h2 : ∀ e f, L2 e f = L2' e f) (hw : ∀ d, w d = w' d)
    (f : Fin 128) : Cert.Spec.head x L1 L2 w f = Cert.Spec.head x' L1' L2' w' f := by
  obtain rfl : x = x' := funext hx
  obtain rfl : L1 = L1' := funext fun d => funext (h1 d)
  obtain rfl : L2 = L2' := funext fun e => funext (h2 e)
  obtain rfl : w = w' := funext hw
  rfl

/-- The printed index maps, decided over the grid: the pixel, first-layer and second-layer blocks move with the output
    block along the sample axis only, the weight row's block never moves, and the output's block index stays in range. -/
theorem block_index_facts : ∀ t : Fin cfg1.N,
    win1_4.index t (0 : Fin 3) ≤ 127 ∧ win1_4.index t (1 : Fin 3) = 0 ∧ win1_4.index t (2 : Fin 3) = 0
    ∧ win1_0.index t (0 : Fin 3) = win1_4.index t (0 : Fin 3) ∧ win1_0.index t (1 : Fin 3) = 0 ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0 :=
  (by decide +kernel : ∀ t : Fin grid1.N, _)

/-- Every block of sixteen samples is some point's output block. -/
theorem block_index_onto : ∀ q : Fin 128, ∃ t : Fin cfg1.N, win1_4.index t = ![q.val, 0, 0] :=
  (by decide +kernel : ∀ q : Fin 128, ∃ t : Fin grid1.N, win1_4.index t = ![q.val, 0, 0])

/-- The pixel block at point `t`: sample `b` of the block is sample `s` of the array when `s` is the block's
    sixteen-sample offset plus `b`. -/
theorem pixels_block (c : Dev nD) (t : Fin cfg1.N) (b : Fin 16) (n : Fin 256) (d : Fin 128) (s : Fin 2048)
    (hs : s.val = win1_4.index t (0 : Fin 3) * 16 + b.val) :
    iblk1 (F := Ideal) V c 0 t (ix3 b n d) = V c main_arg0 (ix3 s n d) := by
  obtain ⟨-, -, -, e0, e1, e2, -⟩ := block_index_facts t
  unfold iblk1
  rw [View.read_apply]
  show V c main_arg0 _ = V c main_arg0 _
  congr 1
  funext a; apply Fin.ext
  match a with
  | ⟨0, _⟩ => show win1_0.index t (0 : Fin 3) * 16 + 1 * b.val = s.val; omega
  | ⟨1, _⟩ => show win1_0.index t (1 : Fin 3) * 256 + 1 * n.val = n.val; omega
  | ⟨2, _⟩ => show win1_0.index t (2 : Fin 3) * 128 + 1 * d.val = d.val; omega

/-- The first-layer block at point `t`, likewise. -/
theorem layer1_block (c : Dev nD) (t : Fin cfg1.N) (b : Fin 16) (d e : Fin 128) (s : Fin 2048)
    (hs : s.val = win1_4.index t (0 : Fin 3) * 16 + b.val) :
    iblk1 (F := Ideal) V c 1 t (ix3 b d e) = V c main_v3 (ix3 s d e) := by
  obtain ⟨-, -, -, -, -, -, e0, e1, e2, -⟩ := block_index_facts t
  unfold iblk1
  rw [View.read_apply]
  show V c main_v3 _ = V c main_v3 _
  congr 1
  funext a; apply Fin.ext
  match a with
  | ⟨0, _⟩ => show win1_1.index t (0 : Fin 3) * 16 + 1 * b.val = s.val; omega
  | ⟨1, _⟩ => show win1_1.index t (1 : Fin 3) * 128 + 1 * d.val = d.val; omega
  | ⟨2, _⟩ => show win1_1.index t (2 : Fin 3) * 128 + 1 * e.val = e.val; omega

/-- The second-layer block at point `t`, likewise. -/
theorem layer2_block (c : Dev nD) (t : Fin cfg1.N) (b : Fin 16) (e f : Fin 128) (s : Fin 2048)
    (hs : s.val = win1_4.index t (0 : Fin 3) * 16 + b.val) :
    iblk1 (F := Ideal) V c 2 t (ix3 b e f) = V c main_v5 (ix3 s e f) := by
  obtain ⟨-, -, -, -, -, -, -, -, -, e0, e1, e2, -⟩ := block_index_facts t
  unfold iblk1
  rw [View.read_apply]
  show V c main_v5 _ = V c main_v5 _
  congr 1
  funext a; apply Fin.ext
  match a with
  | ⟨0, _⟩ => show win1_2.index t (0 : Fin 3) * 16 + 1 * b.val = s.val; omega
  | ⟨1, _⟩ => show win1_2.index t (1 : Fin 3) * 128 + 1 * e.val = e.val; omega
  | ⟨2, _⟩ => show win1_2.index t (2 : Fin 3) * 128 + 1 * f.val = f.val; omega

/-- The weight row's block is the whole row at every point. -/
theorem weights_block (c : Dev nD) (t : Fin cfg1.N) (d : Fin 128) :
    iblk1 (F := Ideal) V c 3 t (ix3 0 0 d) = V c main_v6 (ix3 0 0 d) := by
  obtain ⟨-, -, -, -, -, -, -, -, -, -, -, -, e0, e1, e2⟩ := block_index_facts t
  unfold iblk1
  rw [View.read_apply]
  show V c main_v6 _ = V c main_v6 _
  congr 1
  funext a; apply Fin.ext
  match a with
  | ⟨0, _⟩ => show win1_3.index t (0 : Fin 3) * 1 + 1 * 0 = 0; omega
  | ⟨1, _⟩ => show win1_3.index t (1 : Fin 3) * 1 + 1 * 0 = 0; omega
  | ⟨2, _⟩ => show win1_3.index t (2 : Fin 3) * 128 + 1 * d.val = d.val; omega

/-- The body's payload on the blocks of point `t`, at sample `b` of the block, is `headOfArrays` at the sample of
    the array that `b` stands for. -/
theorem block_value (c : Dev nD) (t : Fin cfg1.N) (b : Fin 16) (n : Fin 256) (f : Fin 128) (s : Fin 2048)
    (hs : s.val = win1_4.index t (0 : Fin 3) * 16 + b.val) :
    k1_pay1 (F := Ideal) (iblk1 V c 0 t) (iblk1 V c 1 t) (iblk1 V c 2 t) (iblk1 V c 3 t) (ix3 b n f)
      = headOfArrays V c (ix3 s n f) := by
  refine (MlpBody.pay_apply (iblk1 V c 0 t) (iblk1 V c 1 t) (iblk1 V c 2 t) (iblk1 V c 3 t) b n f).trans ?_
  exact head_congr (fun d => pixels_block V c t b n d s hs) (fun d e => layer1_block V c t b d e s hs)
    (fun e f => layer2_block V c t b e f s hs) (fun d => weights_block V c t d) f

/-- What point `t` writes back is its block of `headOfArrays`. -/
theorem flushed_eq (c : Dev nD) (t : Fin cfg1.N) :
    (dat1 (F := Ideal) V c).flushed 4 t = ((cfg1.win 4).blk t).view.read (Elt Ideal) (headOfArrays V c) := by
  show (cfg1.win 4).cut (grid1.coords t) ((dat1 (F := Ideal) V c).after 4 t) = _
  rw [after1_4]
  unfold out1_4
  rw [View.canon_unit_zero zero_offsets]
  simp only [View.ld_unit_zero (S := S16x256x128) zero_offsets, View.ld_unit_zero (S := S16x128x128) zero_offsets,
    View.ld_unit_zero (S := S1x1x128) zero_offsets]
  funext y
  have hy0 : (y 0).val < 16 := (y 0).isLt
  have hy1 : (y 1).val < 256 := (y 1).isLt
  have hy2 : (y 2).val < 128 := (y 2).isLt
  obtain ⟨e0, e1, e2, -⟩ := block_index_facts t
  have hL : (cfg1.win 4).xinj (grid1.coords t) y
      = ix3 (⟨(y 0).val, hy0⟩ : Fin 16) (⟨(y 1).val, hy1⟩ : Fin 256) (⟨(y 2).val, hy2⟩ : Fin 128) := by
    funext a
    match a with
    | ⟨0, _⟩ => rfl
    | ⟨1, _⟩ => rfl
    | ⟨2, _⟩ => rfl
  have hR : ((cfg1.win 4).blk t).view.emb y
      = ix3 (⟨win1_4.index t (0 : Fin 3) * 16 + (y 0).val, by omega⟩ : Fin 2048) (⟨(y 1).val, hy1⟩ : Fin 256)
          (⟨(y 2).val, hy2⟩ : Fin 128) := by
    funext a; apply Fin.ext
    match a with
    | ⟨0, _⟩ => show win1_4.index t (0 : Fin 3) * 16 + 1 * (y 0).val = win1_4.index t (0 : Fin 3) * 16 + (y 0).val; omega
    | ⟨1, _⟩ => show win1_4.index t (1 : Fin 3) * 256 + 1 * (y 1).val = (y 1).val; omega
    | ⟨2, _⟩ => show win1_4.index t (2 : Fin 3) * 128 + 1 * (y 2).val = (y 2).val; omega
  exact (congrArg (k1_pay1 (F := Ideal) (iblk1 V c 0 t) (iblk1 V c 1 t) (iblk1 V c 2 t) (iblk1 V c 3 t)) hL).trans
    ((block_value V c t _ _ _ _ rfl).trans (congrArg (headOfArrays V c) hR.symm))

/-- An index of the array is in point `t`'s output block iff each coordinate is in the block's range on its axis. -/
theorem mem_block (t : Fin cfg1.N) (i : S2048x256x128.Idx) :
    i ∈ ((cfg1.win 4).blk t).view.set ↔ ∀ a : Fin 3, win1_4.index t a * S16x256x128.size a ≤ (i a).val
      ∧ (i a).val < win1_4.index t a * S16x256x128.size a + S16x256x128.size a := by
  show i ∈ ((View.whole main_v7).slice (win1_4.rect t)).set ↔ _
  rw [View.set_slice_whole, Rect.mem_set_unit]
  exact Iff.rfl

/-- Every index of the array is in some point's output block: sample `s` is in block `s / 16`. -/
theorem blocks_cover (i : S2048x256x128.Idx) :
    ∃ t : Fin cfg1.N, (cfg1.win 4).flush t = true ∧ i ∈ ((cfg1.win 4).blk t).view.set := by
  have hi0 : (i 0).val < 2048 := (i 0).isLt
  have hi1 : (i 1).val < 256 := (i 1).isLt
  have hi2 : (i 2).val < 128 := (i 2).isLt
  obtain ⟨t, ht⟩ := block_index_onto ⟨(i 0).val / 16, by omega⟩
  have q0 : win1_4.index t (0 : Fin 3) = (i 0).val / 16 := congrFun ht 0
  have q1 : win1_4.index t (1 : Fin 3) = 0 := congrFun ht 1
  have q2 : win1_4.index t (2 : Fin 3) = 0 := congrFun ht 2
  refine ⟨t, flush1_4 t, ?_⟩
  rw [mem_block]
  intro a
  match a with
  | ⟨0, _⟩ => show win1_4.index t (0 : Fin 3) * 16 ≤ (i 0).val ∧ (i 0).val < win1_4.index t (0 : Fin 3) * 16 + 16; omega
  | ⟨1, _⟩ => show win1_4.index t (1 : Fin 3) * 256 ≤ (i 1).val ∧ (i 1).val < win1_4.index t (1 : Fin 3) * 256 + 256; omega
  | ⟨2, _⟩ => show win1_4.index t (2 : Fin 3) * 128 ≤ (i 2).val ∧ (i 2).val < win1_4.index t (2 : Fin 3) * 128 + 128; omega

/-- The output array after the region is `headOfArrays`. -/
theorem array_eq (c : Dev nD) : (dat1 (F := Ideal) V c).arrAt 4 cfg1.N = headOfArrays V c :=
  (dat1 (F := Ideal) V c).arrAt_eq_of_cover 4 (headOfArrays V c) (fun t _ => flushed_eq V c t) blocks_cover

theorem array_apply (c : Dev nD) (s : Fin 2048) (n : Fin 256) (f : Fin 128) :
    (dat1 (F := Ideal) V c).arrAt 4 cfg1.N (ix3 s n f)
      = Cert.Spec.head (fun d => V c main_arg0 (ix3 s n d)) (fun d e => V c main_v3 (ix3 s d e))
          (fun e f => V c main_v5 (ix3 s e f)) (fun d => V c main_v6 (ix3 0 0 d)) f := by
  exact congrFun (array_eq V c) (ix3 s n f)

end Cert.KernelIdeal.MlpRegion

end
-- ==== Proof.HostGlue.lean ====
/-
  Between the two kernel calls the host only re-reads what the first call left: the two halves of each sample's
  32768 generated numbers, each read row-major as a 128 × 128 matrix, and the feature weights as a 1 × 1 × 128 array;
  before the first call it reads the bias vector as one row. Here each of those reshapes and slices is read at an
  index, the argument arrays are followed unchanged through every boundary of the run, and the result array after the
  second call is identified with the specification of the five argument arrays.
-/
import proofs.«156047_j73392401154483_1_alg».proof.Proof.Gen.KernelIdeal.Frame
import proofs.«156047_j73392401154483_1_alg».proof.Proof.Spec
import proofs.«156047_j73392401154483_1_alg».proof.Proof.ParamsRegion
import proofs.«156047_j73392401154483_1_alg».proof.Proof.MlpRegion
import Idealize.ShloMosaic.Lib.ValueIdx
import Idealize.ShloMosaic.Lib.Pipeline.Value
import Idealize.ShloMosaic.Lib.StableHlo.Run

noncomputable section

open scoped BigOperators

namespace Cert.KernelIdeal.HostGlue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Buffers the first stretch of host operations leaves alone -/

theorem V1_arg1 (c : Dev nD) : V1 m ρ c main_arg1 = m ((c : Thread nD τ).loc main_arg1) :=
  StableHlo.after_of_forall_not_mem (b := Proc.devRef .tc main_arg1) _ _ (List.forall_iff_forall_mem.mp (by
      simp only [hostOps0, hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))

theorem V1_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))

theorem V1_v0 (c : Dev nD) : V1 m ρ c main_v0 = shapeCast S1x32768 (m ((c : Thread nD τ).loc main_arg3)) shapeCasts_S32768_S1x32768 := by
  show StableHlo.after hostOps0 (W0 m ρ c) (Proc.devRef .tc main_v0) = _
  after_results
  rfl

theorem V3_v3 (c : Dev nD) : V3 m ρ c main_v3 = shapeCast S2048x128x128 (extractStridedSlice S2048x16384 ![0, 0] (W2 m ρ c (Proc.devRef .tc main_v1)) slices_S2048x32768_S2048x16384_0_0) shapeCasts_S2048x16384_S2048x128x128 := by
  show StableHlo.after hostOps1 (W2 m ρ c) (Proc.devRef .tc main_v3) = _
  after_results
  rfl

/-! ## The host reshapes and slices read at an index -/

/-- The bias vector seen as one row: entry `(0, j)` is entry `j`. -/
theorem bias_row_apply (x : S32768.Idx → EReal) (j : Fin 32768) :
    shapeCast S1x32768 x shapeCasts_S32768_S1x32768 (ix2 (0 : Fin 1) j) = x (ix1 j) :=
  shapeCast_apply x shapeCasts_S32768_S1x32768 _ _ (by
    rw [Shape.rowMajor_val_one, Shape.rowMajor_val_two]
    show j.val = 0 * 32768 + j.val
    omega)

/-- The feature weights seen as a `1 × 1 × 128` array: entry `(0, 0, d)` is entry `d`. -/
theorem weight_row_apply (x : S128.Idx → EReal) (d : Fin 128) :
    shapeCast S1x1x128 x shapeCasts_S128_S1x1x128 (ix3 (0 : Fin 1) (0 : Fin 1) d) = x (ix1 d) :=
  shapeCast_apply x shapeCasts_S128_S1x1x128 _ _ (by
    rw [Shape.rowMajor_val_one, Shape.rowMajor_val_three]
    show d.val = (0 * 1 + 0) * 128 + d.val
    omega)

/-- The first half of a sample's generated numbers, read row-major as a `128 × 128` matrix: entry `(d, e)` is number
    `128 d + e`. -/
theorem layer1_apply (x : S2048x32768.Idx → EReal) (s : Fin 2048) (d e : Fin 128) :
    shapeCast S2048x128x128 (extractStridedSlice S2048x16384 ![0, 0] x slices_S2048x32768_S2048x16384_0_0)
        shapeCasts_S2048x16384_S2048x128x128 (ix3 s d e) = x (ix2 s (Cert.Spec.pos1 d e)) := by
  rw [shapeCast_apply _ shapeCasts_S2048x16384_S2048x128x128 (ix3 s d e)
    (ix2 s (⟨128 * d.val + e.val, by omega⟩ : Fin 16384)) (by
      rw [Shape.rowMajor_val_two, Shape.rowMajor_val_three]
      show s.val * 16384 + (128 * d.val + e.val) = (s.val * 128 + d.val) * 128 + e.val
      omega)]
  exact extractStridedSlice_apply _ x slices_S2048x32768_S2048x16384_0_0 _ _ (fun a => by
    match a with
    | ⟨0, _⟩ => show s.val = 0 + s.val; omega
    | ⟨1, _⟩ => show 128 * d.val + e.val = 0 + (128 * d.val + e.val); omega)

/-- The second half likewise: entry `(e, f)` is number `16384 + 128 e + f`. -/
theorem layer2_apply (x : S2048x32768.Idx → EReal) (s : Fin 2048) (e f : Fin 128) :
    shapeCast S2048x128x128 (extractStridedSlice S2048x16384 ![0, 16384] x slices_S2048x32768_S2048x16384_0_16384)
        shapeCasts_S2048x16384_S2048x128x128 (ix3 s e f) = x (ix2 s (Cert.Spec.pos2 e f)) := by
  rw [shapeCast_apply _ shapeCasts_S2048x16384_S2048x128x128 (ix3 s e f)
    (ix2 s (⟨128 * e.val + f.val, by omega⟩ : Fin 16384)) (by
      rw [Shape.rowMajor_val_two, Shape.rowMajor_val_three]
      show s.val * 16384 + (128 * e.val + f.val) = (s.val * 128 + e.val) * 128 + f.val
      omega)]
  exact extractStridedSlice_apply _ x slices_S2048x32768_S2048x16384_0_16384 _ _ (fun a => by
    match a with
    | ⟨0, _⟩ => show s.val = 0 + s.val; omega
    | ⟨1, _⟩ => show 16384 + (128 * e.val + f.val) = 16384 + (128 * e.val + f.val); rfl)

/-! ## Buffers between the two regions -/

theorem V3_v5 (c : Dev nD) : V3 m ρ c main_v5 = shapeCast S2048x128x128 (extractStridedSlice S2048x16384 ![0, 16384] (W2 m ρ c (Proc.devRef .tc main_v1)) slices_S2048x32768_S2048x16384_0_16384) shapeCasts_S2048x16384_S2048x128x128 := by
  show StableHlo.after hostOps1 (W2 m ρ c) (Proc.devRef .tc main_v5) = _
  after_results
  rfl

theorem W2_arg4 (c : Dev nD) : W2 m ρ c (Proc.devRef .tc main_arg4) = m ((c : Thread nD τ).loc main_arg4) :=
  (W2_of_ne m ρ c main_arg4 (by decide)).trans
    (StableHlo.after_of_forall_not_mem (b := Proc.devRef .tc main_arg4) _ _ (List.forall_iff_forall_mem.mp (by
      simp only [hostOps0, hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))))

theorem V3_v6 (c : Dev nD) : V3 m ρ c main_v6 = shapeCast S1x1x128 (m ((c : Thread nD τ).loc main_arg4)) shapeCasts_S128_S1x1x128 := by
  show StableHlo.after hostOps1 (W2 m ρ c) (Proc.devRef .tc main_v6) = _
  after_results
  rw [W2_arg4]
  rfl

theorem V3_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps0, hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
    _ = W1 m ρ c (Proc.devRef .tc main_arg0) := W2_of_ne m ρ c main_arg0 (by decide)
    _ = m ((c : Thread nD τ).loc main_arg0) := StableHlo.after_of_forall_not_mem (b := Proc.devRef .tc main_arg0) _ _ (List.forall_iff_forall_mem.mp (by
      simp only [hostOps0, hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))

/-- The generated numbers when the second region is entered: what the first region's write-backs left. -/
theorem params_apply (c : Dev nD) (s : Fin 2048) (j : Fin 32768) :
    W2 m ρ c (Proc.devRef .tc main_v1) (ix2 s j)
      = Cert.Spec.param (m ((c : Thread nD τ).loc main_arg1)) (m ((c : Thread nD τ).loc main_arg2)) (m ((c : Thread nD τ).loc main_arg3)) s j := by
  refine (congrFun (W2_arr m ρ c 3) (ix2 s j)).trans ?_
  rw [ParamsRegion.array_apply (V1 m ρ) c s j, V1_arg1, V1_arg2, V1_v0, bias_row_apply]
  rfl

/-! ## The result array -/

/-- After the run the result array is the specification of the five argument arrays. -/
theorem result_array (c : Dev nD) :
    W4 m ρ c (Proc.devRef .tc main_v7)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨s, n, f, rfl⟩ : ∃ s n f, i = ix3 s n f := ⟨i 0, i 1, i 2, eq_ix3 i⟩
  refine (congrFun (W4_arr m ρ c 4) (ix3 s n f)).trans ?_
  rw [MlpRegion.array_apply (V3 m ρ) c s n f]
  have h1 : (fun d e => V3 m ρ c main_v3 (ix3 s d e))
      = fun d e => Cert.Spec.param (m ((c : Thread nD τ).loc main_arg1)) (m ((c : Thread nD τ).loc main_arg2)) (m ((c : Thread nD τ).loc main_arg3)) s (Cert.Spec.pos1 d e) := by
    funext d e
    rw [V3_v3, layer1_apply, params_apply]
  have h2 : (fun e f => V3 m ρ c main_v5 (ix3 s e f))
      = fun e f => Cert.Spec.param (m ((c : Thread nD τ).loc main_arg1)) (m ((c : Thread nD τ).loc main_arg2)) (m ((c : Thread nD τ).loc main_arg3)) s (Cert.Spec.pos2 e f) := by
    funext e f
    rw [V3_v5, layer2_apply, params_apply]
  have h3 : (fun d => V3 m ρ c main_v6 (ix3 0 0 d)) = fun d => m ((c : Thread nD τ).loc main_arg4) (ix1 d) := by
    funext d
    rw [V3_v6, weight_row_apply]
  rw [h1, h2, h3, V3_arg0]
  rfl

end Cert.KernelIdeal.HostGlue

end
-- ==== Proof.lean ====
/-
  The certificate of the generated-weights head: per sample, a linear map of the patch features produces the two
  128 × 128 layers of a small perceptron; the pixel rows, divided by their root mean square and scaled, go through the
  first layer (its columns divided by their floored Euclidean norms), the gate `h · σ(h)`, the second layer, and get
  their own row added back.

  The kernel computes this in two pallas_calls (the linear map, tiled 256 × 2048 over a 16 × 8 grid; then the
  perceptron, sixteen samples at a grid point) with host slices and reshapes between them; the reference in one line of
  host operations. At the ideal instance both are the function `Cert.Spec.result` of the five argument arrays, entry
  by entry, with the sums in the same order on both sides: no algebraic law is needed and finiteness of the inputs is
  never used. The two programs' frames are the generated ones; the reference's frame is its generated run; the ideal
  pass rewrote nothing, so `preserves` is trivial.
-/
import proofs.«156047_j73392401154483_1_alg».proof.Defs
import proofs.«156047_j73392401154483_1_alg».proof.Proof.Gen.Kernel
import proofs.«156047_j73392401154483_1_alg».proof.Proof.Gen.Kernel.Skeleton
import proofs.«156047_j73392401154483_1_alg».proof.Proof.Gen.Kernel.Launch
import proofs.«156047_j73392401154483_1_alg».proof.Proof.Gen.Kernel.Points
import proofs.«156047_j73392401154483_1_alg».proof.Proof.Gen.Kernel.Frame
import proofs.«156047_j73392401154483_1_alg».proof.Proof.Gen.KernelIdeal
import proofs.«156047_j73392401154483_1_alg».proof.Proof.Gen.KernelIdeal.Skeleton
import proofs.«156047_j73392401154483_1_alg».proof.Proof.Gen.KernelIdeal.Launch
import proofs.«156047_j73392401154483_1_alg».proof.Proof.Gen.KernelIdeal.Points
import proofs.«156047_j73392401154483_1_alg».proof.Proof.Gen.KernelIdeal.Frame
import proofs.«156047_j73392401154483_1_alg».proof.Proof.Gen.ReferenceIdeal
import proofs.«156047_j73392401154483_1_alg».proof.Proof.Gen.Pre_finite_inputs
import proofs.«156047_j73392401154483_1_alg».proof.Proof.Gen.ReferenceIdeal.Run
import proofs.«156047_j73392401154483_1_alg».proof.Proof.Gen.ReferenceIdeal.Read
import proofs.«156047_j73392401154483_1_alg».proof.Proof.Spec
import proofs.«156047_j73392401154483_1_alg».proof.Proof.RefValue
import proofs.«156047_j73392401154483_1_alg».proof.Proof.KernelRun
import proofs.«156047_j73392401154483_1_alg».proof.Proof.HostGlue
import Idealize.ShloMosaic.Adequacy
import Idealize.ShloMosaic.Init

noncomputable section

namespace Cert.Proof

open Idealize.ShloMosaic Idealize.SL.Sem

/-- The kernel's run ends with the result array at the specification of its arguments; the reference's run ends with
    its last stage there, which is the same specification of arguments that agree. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.HostGlue.result_array m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
